-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S800000 32) (main_arg2 : IVec S800000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 48
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x1, .f32⟩
  | .hbm, ⟨46, _⟩ => ⟨S1x128, .f32⟩
  | .hbm, ⟨47, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v25) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.Dense.lean ====
/-
  The dense stage of a graph convolution, as one function of whole arrays.

  With `a` the aggregated features (one row per node), `n` the per-node scale of the receiving side, `w` the
  projection and `b` the bias, entry `(p, q)` of the result is

      ∑ k, (a (p, k) · n p) · w (k, q)  +  b q :

  row `p` of `a` scaled by `n p`, projected by `w`, shifted by `b`. The kernel computes it block of rows by
  block of rows from a column `[N, 1]` holding `n` and a row `[1, D]` holding `b`; the reference computes it
  from `n` and `b` spread to full arrays. Both group the products as written above, so no law of the extended
  reals is needed to join them: only the reading of each program's layout operations at an index.
-/
import Idealize.ShloMosaic.PureOps.Ideal
import Idealize.ShloMosaic.Lib.ValueIdx

noncomputable section

namespace Cert.GraphConv

open Idealize.ShloMosaic Idealize.ShloMosaic.ValueIdx
open scoped BigOperators

/-- Entry `(p, q)` of the dense stage from the scale as a vector and the bias as a vector. -/
def denseAt (a : (⟨2, ![50000, 128]⟩ : Shape).Idx → EReal) (n : (⟨1, ![50000]⟩ : Shape).Idx → EReal)
    (w : (⟨2, ![128, 128]⟩ : Shape).Idx → EReal) (b : (⟨1, ![128]⟩ : Shape).Idx → EReal) (p : Fin 50000) (q : Fin 128) : EReal :=
  (∑ k : Fin 128, (a (ix2 p k) * n (ix1 p)) * w (ix2 k q)) + b (ix1 q)

/-- The dense stage as a whole array. -/
def dense (a : (⟨2, ![50000, 128]⟩ : Shape).Idx → EReal) (n : (⟨1, ![50000]⟩ : Shape).Idx → EReal)
    (w : (⟨2, ![128, 128]⟩ : Shape).Idx → EReal) (b : (⟨1, ![128]⟩ : Shape).Idx → EReal) :
    (⟨2, ![50000, 128]⟩ : Shape).Idx → EReal :=
  fun i => denseAt a n w b (i 0) (i 1)

/-- Entry `(p, q)` of the same stage from the scale as a column `[N, 1]` and the bias as a row `[1, D]`: what the
    kernel's blocks are cut from. -/
def stagedAt (a : (⟨2, ![50000, 128]⟩ : Shape).Idx → EReal) (col : (⟨2, ![50000, 1]⟩ : Shape).Idx → EReal)
    (w : (⟨2, ![128, 128]⟩ : Shape).Idx → EReal) (row : (⟨2, ![1, 128]⟩ : Shape).Idx → EReal) (p : Fin 50000) (q : Fin 128) : EReal :=
  (∑ k : Fin 128, (a (ix2 p k) * col (ix2 p (0 : Fin 1))) * w (ix2 k q)) + row (ix2 (0 : Fin 1) q)

/-- The column-and-row form as a whole array. -/
def staged (a : (⟨2, ![50000, 128]⟩ : Shape).Idx → EReal) (col : (⟨2, ![50000, 1]⟩ : Shape).Idx → EReal)
    (w : (⟨2, ![128, 128]⟩ : Shape).Idx → EReal) (row : (⟨2, ![1, 128]⟩ : Shape).Idx → EReal) :
    (⟨2, ![50000, 128]⟩ : Shape).Idx → EReal :=
  fun i => stagedAt a col w row (i 0) (i 1)

/-- A column that holds `n` and a row that holds `b` give the dense stage of `n` and `b`. -/
theorem staged_eq_dense (a : (⟨2, ![50000, 128]⟩ : Shape).Idx → EReal) (n : (⟨1, ![50000]⟩ : Shape).Idx → EReal)
    (w : (⟨2, ![128, 128]⟩ : Shape).Idx → EReal) (b : (⟨1, ![128]⟩ : Shape).Idx → EReal)
    (col : (⟨2, ![50000, 1]⟩ : Shape).Idx → EReal) (row : (⟨2, ![1, 128]⟩ : Shape).Idx → EReal)
    (hcol : ∀ p : Fin 50000, col (ix2 p (0 : Fin 1)) = n (ix1 p)) (hrow : ∀ q : Fin 128, row (ix2 (0 : Fin 1) q) = b (ix1 q)) :
    staged a col w row = dense a n w b := by
  funext i
  obtain ⟨p, q, rfl⟩ : ∃ (p : Fin 50000) (q : Fin 128), i = ix2 p q := ⟨i 0, i 1, eq_ix2 i⟩
  show stagedAt a col w row p q = denseAt a n w b p q
  unfold stagedAt denseAt
  rw [hcol, hrow]

end Cert.GraphConv

end
-- ==== Proof.Block.lean ====
/-
  One block of the kernel at an index.

  At a grid point the body holds a block `x0` of 2000 rows of aggregated features, the matching 2000 entries `x1`
  of the scale column, the whole projection `x2` and the bias row `x3`. It scales row `p` of `x0` by `x1 (p, 0)`,
  multiplies by `x2` on the matrix unit into a zero accumulator (the operands' change of format is the identity on
  the extended reals) and adds the bias row spread down the rows. So entry `(p, q)` of what it stores is
  `∑ k, (x0 (p, k) · x1 (p, 0)) · x2 (k, q) + x3 (0, q)`.
-/
import proofs.«124369_j44487271252060_1_alg».proof.Proof.Gen.KernelIdeal.Skeleton
import proofs.«124369_j44487271252060_1_alg».proof.Proof.LibDotFormats
import proofs.«124369_j44487271252060_1_alg».proof.Proof.LibColumn
import proofs.«124369_j44487271252060_1_alg».proof.Proof.Dense
import Idealize.ShloMosaic.Lib.ValueLayout
import Idealize.ShloMosaic.Lib.Pipeline.Value
import Idealize.ShloMosaic.Lib.ValueIdx

noncomputable section

namespace Cert.GraphConv

open Cert.KernelIdeal Cert.KernelIdeal.Gen Idealize.ShloMosaic Idealize.ShloMosaic.ValueIdx
open scoped BigOperators

/-- The stored block at `(p, q)`. -/
theorem pay_apply (x0 : Vec Ideal S2000x128 .f32) (x1 : Vec Ideal S2000x1 .f32) (x2 : Vec Ideal S128x128 .f32)
    (x3 : Vec Ideal S1x128 .f32) (p : Fin 2000) (q : Fin 128) :
    k0_pay1 (F := Ideal) x0 x1 x2 x3 (ix2 p q)
      = (∑ k : Fin 128, (x0 (ix2 p k) * x1 (ix2 p (0 : Fin 1))) * x2 (ix2 k q)) + x3 (ix2 (0 : Fin 1) q) := by
  unfold k0_pay1
  refine (addf_apply _ _ _).trans ?_
  refine congrArg₂ (· + ·) ?_ ?_
  · refine (LibDotFormats.matmul_cols_zero_apply (A := 2000) (K := 128) (B := 128)
      dot_S2000x128_S128x128_S2000x128_1_0_0_1_n_n rfl rfl rfl rfl rfl rfl none _ _ p q).trans ?_
    refine Finset.sum_congr rfl fun k _ => ?_
    refine congrArg₂ (· * ·) ?_ rfl
    refine (mulf_apply _ _ _).trans ?_
    refine congrArg₂ (· * ·) ?_ ?_
    · rw [shapeCast_self]
    · rw [LibColumn.broadcastTo_a1_ab_apply, shapeCast_self]
  · rw [broadcastTo_1b_ab_apply, shapeCast_self]

/-- The same entry when the block's rows are rows of whole arrays: if row `p` of the features' block is row `r` of an
    array `A`, entry `(p, 0)` of the scale's block is entry `(r, 0)` of a column `C`, and the projection's and the
    bias row's blocks are arrays `W` and `R`, the stored entry `(p, q)` is the column-and-row form of the dense stage
    of `A`, `C`, `W`, `R` at `(r, q)`. -/
theorem pay_staged (A : (⟨2, ![50000, 128]⟩ : Shape).Idx → EReal) (C : (⟨2, ![50000, 1]⟩ : Shape).Idx → EReal)
    (W : (⟨2, ![128, 128]⟩ : Shape).Idx → EReal) (R : (⟨2, ![1, 128]⟩ : Shape).Idx → EReal)
    (x0 : Vec Ideal S2000x128 .f32) (x1 : Vec Ideal S2000x1 .f32) (x2 : Vec Ideal S128x128 .f32) (x3 : Vec Ideal S1x128 .f32)
    (p : Fin 2000) (q : Fin 128) (r : Fin 50000)
    (h0 : ∀ k : Fin 128, x0 (ix2 p k) = A (ix2 r k)) (h1 : x1 (ix2 p (0 : Fin 1)) = C (ix2 r (0 : Fin 1)))
    (h2 : ∀ k : Fin 128, x2 (ix2 k q) = W (ix2 k q)) (h3 : x3 (ix2 (0 : Fin 1) q) = R (ix2 (0 : Fin 1) q)) :
    k0_pay1 (F := Ideal) x0 x1 x2 x3 (ix2 p q) = staged A C W R (ix2 r q) := by
  refine (pay_apply x0 x1 x2 x3 p q).trans ?_
  show _ = stagedAt A C W R r q
  unfold stagedAt
  rw [h1, h3]
  refine congrArg₂ (· + ·) (Finset.sum_congr rfl fun k _ => ?_) rfl
  rw [h0 k, h2 k]

end Cert.GraphConv

end
-- ==== Proof.Array.lean ====
/-
  The kernel's result array as one function of the four arrays the region stages.

  The grid has 25 points; point `t` stages rows `2000 t … 2000 t + 1999` of the aggregated features and of the scale
  column, the whole projection and the whole bias row, and writes back rows `2000 t … 2000 t + 1999` of the result.
  Entry `(p, q)` of the block it writes is the block payload at `(p, q)`, which in terms of the arrays is the
  column-and-row form of the dense stage at row `2000 t + p`. The 25 blocks tile the 50000 rows (row `r` lies in
  block `r / 2000`), so after the run the whole result array is that form of the four staged arrays.

  Everything up to the last step is stated over ARBITRARY arrays `A`, `C`, `W`, `R`: what the host operations
  before the region left in the staged arrays plays no part in how the blocks are cut and put back.
-/
import proofs.«124369_j44487271252060_1_alg».proof.Proof.Gen.KernelIdeal.Value
import proofs.«124369_j44487271252060_1_alg».proof.Proof.Block
import proofs.«124369_j44487271252060_1_alg».proof.Proof.Dense
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.GraphConv

open Cert.KernelIdeal Cert.KernelIdeal.Gen Cert.KernelIdeal.Value Idealize.ShloMosaic.ValueIdx
open scoped BigOperators

theorem zero_offsets : (![0, 0] : Fin 2 → Nat) = fun _ => 0 := funext fun a => by fin_cases a <;> rfl

/-- The printed index maps over the grid: the row-blocked windows (aggregated features, scale column, result) sit at
    block row `t`, block column `0`; the projection and the bias row are their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input windows' blocks, read off arbitrary arrays -/

/-- The features' block at point `t`: entry `(p, k)` is the array's entry `(2000 t + p, k)`. -/
theorem read_rows (A : S50000x128.Idx → EReal) (t : Fin cfg0.N) (p : Fin 2000) (k : Fin 128) (r : Fin 50000)
    (hr : r.val = t.val * 2000 + p.val) :
    (((cfg0.win 0).blk t).view.read (Elt Ideal) A : Vec Ideal S2000x128 .f32) (ix2 p k) = A (ix2 r k) := by
  obtain ⟨e0, e1, -⟩ := index_facts t
  rw [View.read_apply]
  show A _ = A _
  refine congrArg A (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The scale column's block at point `t`: entry `(p, 0)` is the column's entry `(2000 t + p, 0)`. -/
theorem read_col (C : S50000x1.Idx → EReal) (t : Fin cfg0.N) (p : Fin 2000) (r : Fin 50000)
    (hr : r.val = t.val * 2000 + p.val) :
    (((cfg0.win 1).blk t).view.read (Elt Ideal) C : Vec Ideal S2000x1 .f32) (ix2 p (0 : Fin 1)) = C (ix2 r (0 : Fin 1)) := by
  obtain ⟨-, -, e0, e1, -⟩ := index_facts t
  rw [View.read_apply]
  show C _ = C _
  refine congrArg C (funext fun a => Fin.ext ?_)
  match a with
  | ⟨0, _⟩ => show win0_1.index t (0 : Fin 2) * 2000 + 1 * p.val = r.val; rw [e0, hr]; omega
  | ⟨1, _⟩ => show win0_1.index t (1 : Fin 2) * 1 + 1 * 0 = 0; rw [e1]

/-- The projection's block at every point is the projection. -/
theorem read_proj (W : S128x128.Idx → EReal) (t : Fin cfg0.N) (k : Fin 128) (q : Fin 128) :
    (((cfg0.win 2).blk t).view.read (Elt Ideal) W : Vec Ideal S128x128 .f32) (ix2 k q) = W (ix2 k q) := by
  obtain ⟨-, -, -, -, e0, e1, -⟩ := index_facts t
  rw [View.read_apply]
  show W _ = W _
  refine congrArg W (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The bias row's block at every point is the bias row. -/
theorem read_bias (R : S1x128.Idx → EReal) (t : Fin cfg0.N) (q : Fin 128) :
    (((cfg0.win 3).blk t).view.read (Elt Ideal) R : Vec Ideal S1x128 .f32) (ix2 (0 : Fin 1) q) = R (ix2 (0 : Fin 1) q) := by
  obtain ⟨-, -, -, -, -, -, e0, e1, -⟩ := index_facts t
  rw [View.read_apply]
  show R _ = R _
  refine congrArg R (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

/-! ## What a point writes back -/

/-- The body's stored block, cut to what is written back at point `t`, is block `t` of the column-and-row form of
    the dense stage of the arrays the blocks were read from. -/
theorem written_block (A : S50000x128.Idx → EReal) (C : S50000x1.Idx → EReal) (W : S128x128.Idx → EReal)
    (R : S1x128.Idx → EReal) (t : Fin cfg0.N) :
    (cfg0.win 4).cut (grid0.coords t)
        (out0_4 (F := Ideal) (((cfg0.win 0).blk t).view.read (Elt Ideal) A) (((cfg0.win 1).blk t).view.read (Elt Ideal) C)
          (((cfg0.win 2).blk t).view.read (Elt Ideal) W) (((cfg0.win 3).blk t).view.read (Elt Ideal) R))
      = ((cfg0.win 4).blk t).view.read (Elt Ideal) (staged A C W R) := by
  unfold out0_4
  rw [View.canon_unit_zero zero_offsets]
  simp only [View.ld_unit_zero (S := S2000x128) zero_offsets, View.ld_unit_zero (S := S2000x1) zero_offsets,
    View.ld_unit_zero (S := S128x128) zero_offsets, View.ld_unit_zero (S := S1x128) zero_offsets]
  funext j
  obtain ⟨p, q, rfl⟩ : ∃ (p : Fin 2000) (q : Fin 128), j = ix2 p q := ⟨j 0, j 1, eq_ix2 j⟩
  have hN : cfg0.N = 25 := N_0
  have ht : t.val < 25 := hN ▸ t.isLt
  obtain ⟨-, -, -, -, -, -, -, -, e0, e1⟩ := index_facts t
  let r : Fin 50000 := ⟨t.val * 2000 + p.val, by have := p.isLt; omega⟩
  have hr : r.val = t.val * 2000 + p.val := rfl
  have hemb : ((cfg0.win 4).blk t).view.emb (ix2 p q) = (ix2 r q : S50000x128.Idx) := by
    funext a; apply Fin.ext
    match a with
    | ⟨0, _⟩ => show win0_4.index t (0 : Fin 2) * 2000 + 1 * p.val = t.val * 2000 + p.val; rw [e0]; omega
    | ⟨1, _⟩ => show win0_4.index t (1 : Fin 2) * 128 + 1 * q.val = q.val; rw [e1]; omega
  refine (pay_staged A C W R (((cfg0.win 0).blk t).view.read (Elt Ideal) A) (((cfg0.win 1).blk t).view.read (Elt Ideal) C)
    (((cfg0.win 2).blk t).view.read (Elt Ideal) W) (((cfg0.win 3).blk t).view.read (Elt Ideal) R) p q r
    (fun k => read_rows A t p k r hr) (read_col C t p r hr) (fun k => read_proj W t k q) (read_bias R t q)).trans ?_
  show staged A C W R (ix2 r q) = staged A C W R (((cfg0.win 4).blk t).view.emb (ix2 p q))
  rw [hemb]

/-! ## The cover -/

/-- An index of the result array is in point `t`'s block iff each coordinate is in the block's range on its axis. -/
theorem mem_block (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v28).slice (win0_4.rect t)).set ↔ _
  rw [View.set_slice_whole, Rect.mem_set_unit]
  exact Iff.rfl

/-- Every index of the result array lies in the block of the point that owns its row: row `r` in block `r / 2000`. -/
theorem covered (i : S50000x128.Idx) : ∃ t : Fin cfg0.N, (cfg0.win 4).flush t = true ∧ i ∈ ((cfg0.win 4).blk t).view.set := by
  have hN : cfg0.N = 25 := N_0
  have hi0 : (i 0).val < 50000 := (i 0).isLt
  have hi1 : (i 1).val < 128 := (i 1).isLt
  let t : Fin cfg0.N := ⟨(i 0).val / 2000, by rw [hN]; omega⟩
  have htv : t.val = (i 0).val / 2000 := rfl
  obtain ⟨-, -, -, -, -, -, -, -, e0, e1⟩ := index_facts t
  refine ⟨t, flush0_4 t, ?_⟩
  rw [mem_block]
  intro a
  match a with
  | ⟨0, _⟩ => show win0_4.index t (0 : Fin 2) * 2000 ≤ (i 0).val ∧ (i 0).val < win0_4.index t (0 : Fin 2) * 2000 + 2000; rw [e0, htv]; omega
  | ⟨1, _⟩ => show win0_4.index t (1 : Fin 2) * 128 ≤ (i 1).val ∧ (i 1).val < win0_4.index t (1 : Fin 2) * 128 + 128; rw [e1]; omega

/-! ## The run -/

variable (m : (ℓ : Loc nD τ sig) → Buf (Elt Ideal) ℓ) (ρ : Dev nD → PrngReg)

/-- What the region's result holds, from the four arrays as the region finds them. -/
def regionOut (c : Dev nD) : S50000x128.Idx → EReal :=
  staged (V m c (Pipeline.arrRef spec0 (0 : Fin cfg0.W))) (V m c (Pipeline.arrRef spec0 (1 : Fin cfg0.W)))
    (V m c (Pipeline.arrRef spec0 (2 : Fin cfg0.W))) (V m c (Pipeline.arrRef spec0 (3 : Fin cfg0.W)))

/-- What point `t` writes back is block `t` of `regionOut`. -/
theorem flushed_eq (c : Dev nD) (t : Fin cfg0.N) :
    (dats m 0 c).flushed 4 t = ((cfg0.win 4).blk t).view.read (Elt Ideal) (regionOut m c) := by
  rw [Value.flushed4]
  unfold regionOut iblk
  generalize V m c (Pipeline.arrRef spec0 (0 : Fin cfg0.W)) = A
  generalize V m c (Pipeline.arrRef spec0 (1 : Fin cfg0.W)) = C
  generalize V m c (Pipeline.arrRef spec0 (2 : Fin cfg0.W)) = W
  generalize V m c (Pipeline.arrRef spec0 (3 : Fin cfg0.W)) = R
  exact written_block A C W R t

/-- The result array after the run. -/
theorem final_out (c : Dev nD) : (dats m 0 c).arrAt 4 cfg0.N = regionOut m c :=
  (dats m 0 c).arrAt_eq_of_cover 4 (regionOut m c) (fun t _ => flushed_eq m c t) covered

/-- The kernel's run, read: the result array at `regionOut`, the arguments unchanged. -/
theorem kernel_run : θ_run defs (onTc (τ := τ) (main (F := Ideal))) ⟨m, fun _ => 0, ρ⟩ fun r => ∀ c : Dev nD,
      r.2.mem ((c : Thread nD τ).loc main_v28) = regionOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_out m c), (h c).2⟩) (Value.run_blocks m ρ)

end Cert.GraphConv

end
-- ==== Proof.Prefix.lean ====
/-
  What the region finds in the arrays it stages, in the reference's own terms.

  Before the region the kernel's program runs the same host operations as the reference, one for one: the two degree
  counts (a scatter-add of ones along the edge ends), each clipped below at one and raised to the power −1/2; the
  features scaled by the sending side's power; their rows gathered along the edges (a negative edge end wrapped once)
  and scatter-added at the receiving ends. So the aggregated features the region stages are the reference's stage
  `%25` of the same arguments, and the receiving side's power is the reference's stage `%12`. The kernel's program
  then only re-lays two vectors: the power as a column `[N, 1]`, the bias as a row `[1, D]`.

  The statements are for an arbitrary instance of the float operations: they compare texts of operations, and no
  operation is ever evaluated.
-/
import proofs.«124369_j44487271252060_1_alg».proof.Proof.Gen.KernelIdeal.Frame
import proofs.«124369_j44487271252060_1_alg».proof.Proof.Gen.ReferenceIdeal.Read
import Idealize.ShloMosaic.Lib.StableHlo.Run

noncomputable section

open Idealize.ShloMosaic Idealize.ShloMosaic.TcCoe Idealize.SL.Sem

namespace Cert.GraphConv

open Cert.KernelIdeal Cert.KernelIdeal.Gen

variable {F : FTy → Type} [FloatOps F]
variable (m : (ℓ : Loc nD τ sig) → Buf (Elt F) ℓ)

/-- The aggregated features the region stages are the reference's stage `%25` of the features and the two index
    vectors. -/
theorem agg_eq (c : Dev nD) :
    (V m c main_v25 : (⟨S50000x128, .f32⟩ : BufTy).Contents (Elt F))
      = Cert.ReferenceIdeal.Read.val_main_v25 (F := F) (m ((c : Thread nD τ).loc main_arg0))
          (m ((c : Thread nD τ).loc main_arg1)) (m ((c : Thread nD τ).loc main_arg2)) := by
  dsimp only [V]
  simp only [hostOps0, hostOps0_1, hostOps0_2, hostOps0_3, hostOps0_4, List.flatten_cons, List.flatten_nil, List.append_nil,
    List.cons_append, List.nil_append]
  after_results_simp
  rfl

/-- The receiving side's scale is the reference's stage `%12` of the receiving ends. -/
theorem scale_eq (c : Dev nD) :
    (V m c main_v12 : (⟨S50000, .f32⟩ : BufTy).Contents (Elt F))
      = Cert.ReferenceIdeal.Read.val_main_v12 (F := F) (m ((c : Thread nD τ).loc main_arg2)) := by
  dsimp only [V]
  simp only [hostOps0, hostOps0_1, hostOps0_2, hostOps0_3, hostOps0_4, List.flatten_cons, List.flatten_nil, List.append_nil,
    List.cons_append, List.nil_append]
  after_results_simp
  rfl

/-- The scale column the region stages is the scale given a trailing unit axis. -/
theorem scale_col (c : Dev nD) :
    (V m c main_v26 : (⟨S50000x1, .f32⟩ : BufTy).Contents (Elt F))
      = shapeCast S50000x1 (V m c main_v12 : (⟨S50000, .f32⟩ : BufTy).Contents (Elt F)) shapeCasts_S50000_S50000x1 := by
  dsimp only [V]
  simp only [hostOps0, hostOps0_1, hostOps0_2, hostOps0_3, hostOps0_4, List.flatten_cons, List.flatten_nil, List.append_nil,
    List.cons_append, List.nil_append]
  after_results_simp
  rfl

/-- The bias row the region stages is the bias given a leading unit axis. -/
theorem bias_row (c : Dev nD) :
    (V m c main_v27 : (⟨S1x128, .f32⟩ : BufTy).Contents (Elt F))
      = shapeCast S1x128 (m ((c : Thread nD τ).loc main_arg4)) shapeCasts_S128_S1x128 := by
  dsimp only [V]
  simp only [hostOps0, hostOps0_1, hostOps0_2, hostOps0_3, hostOps0_4, List.flatten_cons, List.flatten_nil, List.append_nil,
    List.cons_append, List.nil_append]
  after_results_simp
  rfl

end Cert.GraphConv

end
-- ==== Proof.RefDense.lean ====
/-
  The reference's result is the dense stage of its own aggregated features and scale.

  After the shared host operations the reference spreads the scale `n` along a column and then across the rows,
  multiplies it into the aggregated features, contracts with the projection in one product over the whole array and
  adds the bias spread down the rows. Read at `(p, q)`: the product's entry is `∑ k, (a (p, k) · n p) · w (k, q)`,
  and the bias contributes `b q`. The aggregated features and the scale themselves (a scatter-add of gathered rows,
  and a power of a clipped degree count) stay closed: nothing here depends on what they hold.
-/
import proofs.«124369_j44487271252060_1_alg».proof.Proof.Gen.ReferenceIdeal.Read
import proofs.«124369_j44487271252060_1_alg».proof.Proof.Dense

noncomputable section

namespace Cert.GraphConv

open Cert.ReferenceIdeal Cert.ReferenceIdeal.Read Idealize.ShloMosaic Idealize.ShloMosaic.ValueIdx
open scoped BigOperators

/-- The reference's last stage, as a function of the five arguments, is `dense` of its stage `%25` (the aggregated
    features), its stage `%12` (the scale), the projection and the bias. -/
theorem ref_eq_dense (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal)) :
    val_main_v32 (F := Ideal) x0 x1 x2 x3 x4
      = dense (val_main_v25 (F := Ideal) x0 x1 x2) (val_main_v12 (F := Ideal) x2) x3 x4 := by
  funext i
  obtain ⟨p, q, rfl⟩ : ∃ (p : Fin 50000) (q : Fin 128), i = ix2 p q := ⟨i 0, i 1, eq_ix2 i⟩
  show _ = denseAt (val_main_v25 (F := Ideal) x0 x1 x2) (val_main_v12 (F := Ideal) x2) x3 x4 p q
  unfold denseAt
  rw [val_main_v32_apply, val_main_v29_apply, val_main_v31_apply, val_main_v30_apply]
  have eb : idx_main_v30 (idx_main_v31 (ix2 p q)) = ix1 q :=
    funext fun a => Fin.ext (by match a with | ⟨0, _⟩ => rfl)
  rw [eb]
  refine congrArg₂ (· + ·) (Finset.sum_congr rfl fun k _ => ?_) rfl
  have el : lidx_main_v29 (ix2 p q) k = ix2 p k :=
    funext fun a => Fin.ext (by match a with | ⟨0, _⟩ => rfl | ⟨1, _⟩ => rfl)
  have er : ridx_main_v29 (ix2 p q) k = ix2 k q :=
    funext fun a => Fin.ext (by match a with | ⟨0, _⟩ => rfl | ⟨1, _⟩ => rfl)
  have en : idx_main_v26 (idx_main_v27 (ix2 p k)) = ix1 p :=
    funext fun a => Fin.ext (by match a with | ⟨0, _⟩ => rfl)
  rw [el, er, val_main_v28_apply, val_main_v27_apply, val_main_v26_apply, en]
  rfl

end Cert.GraphConv

end
-- ==== Proof.lean ====
/-
  A graph convolution with both-sided degree normalisation: out = (agg · n) W + b, where agg is the sum over the
  edges of the sender-scaled features at each receiving node and n the receiving side's scale.

  The kernel's program and the reference compute agg and n by the same host operations; they differ only after
  that. The kernel lays n out as a column and b as a row and computes, per block of 2000 rows, the scaled rows times
  W on the matrix unit plus the bias row; the reference spreads n and b to full arrays, multiplies, takes one product
  over the whole array and adds. Read at an index both are

      out (p, q) = ∑ k, (agg (p, k) · n p) · W (k, q) + b q

  with the products grouped the same way, so the two results are equal as extended reals with no appeal to any law
  of arithmetic, and so without the inputs' finiteness.

  The pieces: `Dense` (the formula, in the vector form and in the column-and-row form), `Block` (one block of the
  kernel at an index), `Array` (the 25 blocks tile the result array), `Prefix` (what the region finds is the
  reference's own aggregated features and scale, re-laid), `RefDense` (the reference's last stage is the formula).
  Here: the column-and-row form of what the region finds is the vector form of the reference's stages, and the claims.
-/
import proofs.«124369_j44487271252060_1_alg».proof.Defs
import proofs.«124369_j44487271252060_1_alg».proof.Proof.Gen.Kernel
import proofs.«124369_j44487271252060_1_alg».proof.Proof.Gen.Kernel.Skeleton
import proofs.«124369_j44487271252060_1_alg».proof.Proof.Gen.Kernel.Launch
import proofs.«124369_j44487271252060_1_alg».proof.Proof.Gen.Kernel.Points
import proofs.«124369_j44487271252060_1_alg».proof.Proof.Gen.Kernel.Frame
import proofs.«124369_j44487271252060_1_alg».proof.Proof.Gen.KernelIdeal
import proofs.«124369_j44487271252060_1_alg».proof.Proof.Gen.KernelIdeal.Skeleton
import proofs.«124369_j44487271252060_1_alg».proof.Proof.Gen.KernelIdeal.Launch
import proofs.«124369_j44487271252060_1_alg».proof.Proof.Gen.KernelIdeal.Points
import proofs.«124369_j44487271252060_1_alg».proof.Proof.Gen.KernelIdeal.Frame
import proofs.«124369_j44487271252060_1_alg».proof.Proof.Gen.ReferenceIdeal
import proofs.«124369_j44487271252060_1_alg».proof.Proof.Gen.Pre_finite_inputs
import proofs.«124369_j44487271252060_1_alg».proof.Proof.Gen.KernelIdeal.Value
import proofs.«124369_j44487271252060_1_alg».proof.Proof.Gen.ReferenceIdeal.Run
import proofs.«124369_j44487271252060_1_alg».proof.Proof.Gen.ReferenceIdeal.Read
import proofs.«124369_j44487271252060_1_alg».proof.Proof.Array
import proofs.«124369_j44487271252060_1_alg».proof.Proof.Prefix
import proofs.«124369_j44487271252060_1_alg».proof.Proof.RefDense
import proofs.«124369_j44487271252060_1_alg».proof.Proof.LibColumn
import Idealize.ShloMosaic.Lib.ValueLayout
import Idealize.ShloMosaic.Adequacy
import Idealize.ShloMosaic.Init

noncomputable section

open Idealize.ShloMosaic Idealize.ShloMosaic.TcCoe Idealize.SL.Sem

namespace Cert.GraphConv

open Cert.KernelIdeal Cert.KernelIdeal.Gen Idealize.ShloMosaic.ValueIdx

/-- The region's result in the reference's terms: the dense stage of the reference's aggregated features and scale
    of the kernel's arguments, its projection and its bias. The scale column's entry `(p, 0)` is the scale's entry
    `p` and the bias row's entry `(0, q)` the bias' entry `q`: the two casts read at an index. -/
theorem region_eq_dense (m : (ℓ : Loc nD τ sig) → Buf (Elt Ideal) ℓ) (c : Dev nD) :
    regionOut m c
      = dense (Cert.ReferenceIdeal.Read.val_main_v25 (F := Ideal) (m ((c : Thread nD τ).loc main_arg0))
            (m ((c : Thread nD τ).loc main_arg1)) (m ((c : Thread nD τ).loc main_arg2)))
          (Cert.ReferenceIdeal.Read.val_main_v12 (F := Ideal) (m ((c : Thread nD τ).loc main_arg2)))
          (m ((c : Thread nD τ).loc main_arg3)) (m ((c : Thread nD τ).loc main_arg4)) := by
  unfold regionOut
  show staged (V m c main_v25) (V m c main_v26) (V m c main_arg3) (V m c main_v27) = _
  have hA := agg_eq m c
  have hW := V_main_arg3 m c
  have hcol := scale_col m c
  have hn := scale_eq m c
  have hrow := bias_row m c
  generalize V m c main_v25 = A at hA
  generalize V m c main_arg3 = W at hW
  generalize V m c main_v26 = C at hcol
  generalize V m c main_v12 = N at hcol hn
  generalize V m c main_v27 = R at hrow
  subst hA hW hcol hn hrow
  refine staged_eq_dense _ _ _ _ _ _ (fun p => ?_) (fun q => ?_)
  · exact LibColumn.shapeCast_a_a1_apply _ _ p (0 : Fin 1)
  · exact shapeCast_a_1a_apply _ _ (0 : Fin 1) q

end Cert.GraphConv

namespace Cert.Proof

open Cert.GraphConv

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the dense stage of the reference's aggregated features and scale of the same arguments. -/
theorem algebraic : Cert.algebraic_KernelIdeal_ReferenceIdeal := by
  intro m ρ m' ρ' _ hagree
  refine ⟨fun c => dense (Cert.ReferenceIdeal.Read.val_main_v25 (F := Ideal) (m ((c.tc : Thread Cert.KernelIdeal.nD Cert.KernelIdeal.τ).loc Cert.KernelIdeal.main_arg0))
            (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
          (Cert.ReferenceIdeal.Read.val_main_v12 (F := Ideal) (m ((c.tc : Thread Cert.KernelIdeal.nD Cert.KernelIdeal.τ).loc Cert.KernelIdeal.main_arg2)))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun _ h c => ⟨(h c).1.trans (region_eq_dense m c), (h c).2⟩)
      (kernel_run m ρ)
  · refine (θ_run Cert.ReferenceIdeal.defs _ _).mono (fun _ h c => ⟨?_, (h c).2⟩)
      (Cert.ReferenceIdeal.Value.run (F := Ideal) m' ρ')
    obtain ⟨e0, e1, e2, e3, e4⟩ := hagree c
    rw [(h c).1, Cert.ReferenceIdeal.Read.val_main_v32_eq, ref_eq_dense, e0, e1, e2, e3, e4]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
